-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6400000x1 : Shape := ⟨2, ![6400000, 1]⟩
abbrev S2x6400000 : Shape := ⟨2, ![2, 6400000]⟩
abbrev S100000x1 : Shape := ⟨2, ![100000, 1]⟩
abbrev S4x4 : Shape := ⟨2, ![4, 4]⟩
abbrev S_ : Shape := ⟨0, ![]⟩

class Facts : Prop where
  bcast_S_S6400000x1 : S_.BroadcastsInDim S6400000x1 (![] : Fin 0 → Fin S6400000x1.rank)
  reducesTo_S6400000x1_S_d0_1 : S6400000x1.ReducesTo [0, 1] S_
  h_S_ : 0 < S_.numel
  bcast_S_S4x4 : S_.BroadcastsInDim S4x4 (![] : Fin 0 → Fin S4x4.rank)
  reducesTo_S4x4_S_d0_1 : S4x4.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S6400000x1 .f32) (main_arg1 : IVec S2x6400000 32) (main_arg2 : IVec S100000x1 32) (main_arg3 : FVec F S4x4 .f32) : IVec S_ 1 :=
  let main_v0 : FVec F S6400000x1 .f32 := Host.absf main_arg0
  let main_cst : FVec F S_ .f32 := constant S_ .f32 0x7F800000#32
  let main_v1 : FVec F S6400000x1 .f32 := broadcastInDim S6400000x1 ![] bcast_S_S6400000x1 main_cst
  let main_v2 : IVec S6400000x1 1 := cmpf .olt main_v0 main_v1
  let main_c : IVec S_ 1 := constantI S_ 1 1#1
  let main_v3 : IVec S_ 1 := (fun x v => Host.reduce IntOp.andi x v reducesTo_S6400000x1_S_d0_1 h_S_) main_v2 main_c
  let main_v4 : FVec F S4x4 .f32 := Host.absf main_arg3
  let main_cst_0 : FVec F S_ .f32 := constant S_ .f32 0x7F800000#32
  let main_v5 : FVec F S4x4 .f32 := broadcastInDim S4x4 ![] bcast_S_S4x4 main_cst_0
  let main_v6 : IVec S4x4 1 := cmpf .olt main_v4 main_v5
  let main_c_1 : IVec S_ 1 := constantI S_ 1 1#1
  let main_v7 : IVec S_ 1 := (fun x v => Host.reduce IntOp.andi x v reducesTo_S4x4_S_d0_1 h_S_) main_v6 main_c_1
  let main_v8 : IVec S_ 1 := andi main_v3 main_v7
  let main_c_2 : IVec S_ 32 := constantI S_ 32 0#32
  let main_v9 : IVec S100000x1 32 := broadcastInDim S100000x1 ![] bcast_S_S100000x1 main_c_2
  let main_v10 : IVec S100000x1 1 := cmpi .sge main_arg2 main_v9
  let main_c_3 : IVec S_ 1 := constantI S_ 1 1#1
  let main_v11 : IVec S_ 1 := (fun x v => Host.reduce IntOp.andi x v reducesTo_S100000x1_S_d0_1 h_S_) main_v10 main_c_3
  let main_v12 : IVec S_ 1 := andi main_v8 main_v11
  let main_c_4 : IVec S_ 32 := constantI S_ 32 4#32
  let main_v13 : IVec S100000x1 32 := broadcastInDim S100000x1 ![] bcast_S_S100000x1 main_c_4
  let main_v14 : IVec S100000x1 1 := cmpi .slt main_arg2 main_v13
  let main_c_5 : IVec S_ 1 := constantI S_ 1 1#1
  let main_v15 : IVec S_ 1 := (fun x v => Host.reduce IntOp.andi x v reducesTo_S100000x1_S_d0_1 h_S_) main_v14 main_c_5
  fn_part1 (F := F) main_v12 main_v15
-- ==== Kernel.lean ====
abbrev S6400000x1 : Shape := ⟨2, ![6400000, 1]⟩
abbrev S2x6400000 : Shape := ⟨2, ![2, 6400000]⟩
abbrev S100000x1 : Shape := ⟨2, ![100000, 1]⟩
abbrev S4x4 : Shape := ⟨2, ![4, 4]⟩
abbrev S100000 : Shape := ⟨1, ![100000]⟩
abbrev S_ : Shape := ⟨0, ![]⟩
abbrev S1x6400000 : Shape := ⟨2, ![1, 6400000]⟩
abbrev S6400000 : Shape := ⟨1, ![6400000]⟩
abbrev S6400000x2 : Shape := ⟨2, ![6400000, 2]⟩
abbrev S50000x128 : Shape := ⟨2, ![50000, 128]⟩
abbrev S10000x128 : Shape := ⟨2, ![10000, 128]⟩

abbrev nBuf : Space → Nat
  | .hbm => 65
  | .vmem => 6
  | .smem => 0
  | _ => 0

abbrev bufTy : (tb : Table) → Fin (tcTables nBuf tb) → BufTy
  | .hbm, ⟨0, _⟩ => ⟨S6400000x1, .f32⟩
  | .hbm, ⟨1, _⟩ => ⟨S2x6400000, .i32⟩
  | .hbm, ⟨2, _⟩ => ⟨S100000x1, .i32⟩
  | .hbm, ⟨3, _⟩ => ⟨S4x4, .f32⟩
  | .hbm, ⟨4, _⟩ => ⟨S100000, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S1x6400000, .i32⟩
  | .hbm, ⟨14, _⟩ => ⟨S6400000, .i32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000, .i32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000, .i32⟩
  | .hbm, ⟨35, _⟩ => ⟨S_, .i32⟩
  | .hbm, ⟨36, _⟩ => ⟨S6400000, .i32⟩
  | .hbm, ⟨37, _⟩ => ⟨S6400000, .i1⟩
  | .hbm, ⟨38, _⟩ => ⟨S_, .i32⟩
  | .hbm, ⟨39, _⟩ => ⟨S6400000, .i32⟩
  | .hbm, ⟨40, _⟩ => ⟨S6400000, .i32⟩
  | .hbm, ⟨41, _⟩ => ⟨S6400000, .i32⟩
  | .hbm, ⟨42, _⟩ => ⟨S_, .i32⟩
  | .hbm, ⟨43, _⟩ => ⟨S6400000, .i32⟩
  | .hbm, ⟨44, _⟩ => ⟨S6400000, .i1⟩
  | .hbm, ⟨45, _⟩ => ⟨S_, .i32⟩
  | .hbm, ⟨46, _⟩ => ⟨S6400000, .i32⟩
  | .hbm, ⟨47, _⟩ => ⟨S6400000, .i32⟩
  | .hbm, ⟨48, _⟩ => ⟨S6400000, .i32⟩
  | .hbm, ⟨49, _⟩ => ⟨S6400000x1, .i32⟩
  | .hbm, ⟨50, _⟩ => ⟨S6400000x1, .i32⟩
  | .hbm, ⟨51, _⟩ => ⟨S6400000x2, .i32⟩
  | .hbm, ⟨52, _⟩ => ⟨S6400000, .f32⟩
  | .hbm, ⟨53, _⟩ => ⟨S6400000, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S6400000x1, .f32⟩
  | .hbm, ⟨58, _⟩ => ⟨S_, .f32⟩
  | .hbm, ⟨59, _⟩ => ⟨S100000x1, .f32⟩
  | .hbm, ⟨60, _⟩ => ⟨S6400000x1, .i32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | _, _ => ⟨S6400000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100000x1_S100000 : S100000x1.ShapeCasts S100000
  bcast_S_S100000 : S_.BroadcastsInDim S100000 (![] : Fin 0 → Fin S100000.rank)
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x1_S6400000x1_S6400000x2_d1 : Shape.Concatenates [S6400000x1, S6400000x1] S6400000x2 1
  shapeCasts_S6400000x1_S6400000 : S6400000x1.ShapeCasts S6400000
  shapeCasts_S6400000_S50000x128 : S6400000.ShapeCasts S50000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S50000x128_S6400000x1 : S50000x128.ShapeCasts S6400000x1
  bcast_S_S100000x1 : S_.BroadcastsInDim S100000x1 (![] : Fin 0 → Fin S100000x1.rank)
  gather_S100000_S6400000x1_S6400000_n_0_n_n_0_1_1_wf : GatherDims.WF S100000 S6400000x1 S6400000 [] [0] [] [0] [] 1 ![1]
  gather_S4x4_S6400000x2_S6400000_n_01_n_n_01_1_11_wf : GatherDims.WF S4x4 S6400000x2 S6400000 [] [0, 1] [] [0, 1] [] 1 ![1, 1]
  scatter_S100000x1_S6400000x1_S6400000x1_1_0_0_1_wf : ScatterDims.WF S100000x1 S6400000x1 S6400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S4x4_S6400000x2_S6400000_n_01_n_n_01_1_11 : GatherDims S4x4 S6400000x2 S6400000 where
  offsetDims := []
  collapsedSliceDims := [0, 1]
  operandBatchingDims := []
  startIndicesBatchingDims := []
  startIndexMap := [0, 1]
  indexVectorDim := 1
  sliceSizes := ![1, 1]
  wf := gather_S4x4_S6400000x2_S6400000_n_01_n_n_01_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf

abbrev win0_0 : Pipeline.Window sig grid0 :=
  Pipeline.Window.ofSpec (Memref.whole main_v35) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6400000x1 : Shape := ⟨2, ![6400000, 1]⟩
abbrev S2x6400000 : Shape := ⟨2, ![2, 6400000]⟩
abbrev S100000x1 : Shape := ⟨2, ![100000, 1]⟩
abbrev S4x4 : Shape := ⟨2, ![4, 4]⟩
abbrev S1x6400000 : Shape := ⟨2, ![1, 6400000]⟩
abbrev S6400000 : Shape := ⟨1, ![6400000]⟩
abbrev S100000 : Shape := ⟨1, ![100000]⟩
abbrev S_ : Shape := ⟨0, ![]⟩
abbrev S6400000x2 : Shape := ⟨2, ![6400000, 2]⟩

abbrev nBuf : Space → Nat
  | .hbm => 54
  | .vmem => 0
  | .smem => 0
  | _ => 0

abbrev bufTy : (tb : Table) → Fin (tcTables nBuf tb) → BufTy
  | .hbm, ⟨0, _⟩ => ⟨S6400000x1, .f32⟩
  | .hbm, ⟨1, _⟩ => ⟨S2x6400000, .i32⟩
  | .hbm, ⟨2, _⟩ => ⟨S100000x1, .i32⟩
  | .hbm, ⟨3, _⟩ => ⟨S4x4, .f32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S100000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000, .i32⟩
  | .hbm, ⟨18, _⟩ => ⟨S_, .i32⟩
  | .hbm, ⟨19, _⟩ => ⟨S6400000, .i32⟩
  | .hbm, ⟨20, _⟩ => ⟨S6400000, .i1⟩
  | .hbm, ⟨21, _⟩ => ⟨S_, .i32⟩
  | .hbm, ⟨22, _⟩ => ⟨S6400000, .i32⟩
  | .hbm, ⟨23, _⟩ => ⟨S6400000, .i32⟩
  | .hbm, ⟨24, _⟩ => ⟨S6400000, .i32⟩
  | .hbm, ⟨25, _⟩ => ⟨S6400000x1, .i32⟩
  | .hbm, ⟨26, _⟩ => ⟨S6400000, .i32⟩
  | .hbm, ⟨27, _⟩ => ⟨S_, .i32⟩
  | .hbm, ⟨28, _⟩ => ⟨S6400000, .i32⟩
  | .hbm, ⟨29, _⟩ => ⟨S6400000, .i1⟩
  | .hbm, ⟨30, _⟩ => ⟨S_, .i32⟩
  | .hbm, ⟨31, _⟩ => ⟨S6400000, .i32⟩
  | .hbm, ⟨32, _⟩ => ⟨S6400000, .i32⟩
  | .hbm, ⟨33, _⟩ => ⟨S6400000, .i32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000x1, .i32⟩
  | .hbm, ⟨43, _⟩ => ⟨S6400000x2, .i32⟩
  | .hbm, ⟨44, _⟩ => ⟨S6400000, .f32⟩
  | .hbm, ⟨45, _⟩ => ⟨S6400000x1, .f32⟩
  | .hbm, ⟨46, _⟩ => ⟨S6400000x1, .f32⟩
  | .hbm, ⟨47, _⟩ => ⟨S_, .f32⟩
  | .hbm, ⟨48, _⟩ => ⟨S100000x1, .f32⟩
  | .hbm, ⟨49, _⟩ => ⟨S6400000x1, .i32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | _, _ => ⟨S6400000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  shapeCasts_S100000x1_S100000 : S100000x1.ShapeCasts S100000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x1_S6400000x1_S6400000x2_d1 : Shape.Concatenates [S6400000x1, S6400000x1] S6400000x2 1
  bcast_S_S100000x1 : S_.BroadcastsInDim S100000x1 (![] : Fin 0 → Fin S100000x1.rank)
  gather_S100000_S6400000x1_S6400000_n_0_n_n_0_1_1_wf : GatherDims.WF S100000 S6400000x1 S6400000 [] [0] [] [0] [] 1 ![1]
  gather_S4x4_S6400000x2_S6400000_n_01_n_n_01_1_11_wf : GatherDims.WF S4x4 S6400000x2 S6400000 [] [0, 1] [] [0, 1] [] 1 ![1, 1]
  scatter_S100000x1_S6400000x1_S6400000x1_1_0_0_1_wf : ScatterDims.WF S100000x1 S6400000x1 S6400000x1 [1] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S4x4_S6400000x2_S6400000_n_01_n_n_01_1_11 : GatherDims S4x4 S6400000x2 S6400000 where
  offsetDims := []
  collapsedSliceDims := [0, 1]
  operandBatchingDims := []
  startIndicesBatchingDims := []
  startIndexMap := [0, 1]
  indexVectorDim := 1
  sliceSizes := ![1, 1]
  wf := gather_S4x4_S6400000x2_S6400000_n_01_n_n_01_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf

class Facts : Prop extends Facts₀ where

variable [Facts]
-- ==== Proof.EdgeTerms.lean ====
/-
  The pieces both programs are made of, as functions of the four argument arrays, in the spelling of the kernel's
  host program.

  An edge list [2, E] has a row of centre atoms and a row of neighbour atoms.  An index that is negative counts
  from the end of the axis it indexes (i < 0 ↦ i + n).  The type label of an edge's atom is the label table read
  at that atom; the edge's scale is the 4 × 4 scale table read at (label of its centre, label of its neighbour);
  an atom's energy is the sum of the weighted energies of the edges centred on it, times 1/8.
-/
import proofs.«412826_j59777354826469_3_alg».proof.KernelIdeal

noncomputable section

namespace Cert.KernelIdeal.Terms

open Idealize.ShloMosaic Cert.KernelIdeal Cert.KernelIdeal.Facts₀

variable {F : FTy → Type} [FloatOps F] [Cert.KernelIdeal.Facts]

/-- The centre atom of every edge: row 0 of the edge list. -/
def centres (edges : IVec S2x6400000 32) : IVec S6400000 32 :=
  shapeCast S6400000 (extractStridedSlice S1x6400000 ![0, 0] edges slices_S2x6400000_S1x6400000_0_0) shapeCasts_S1x6400000_S6400000

/-- The neighbour atom of every edge: row 1 of the edge list. -/
def neighbours (edges : IVec S2x6400000 32) : IVec S6400000 32 :=
  shapeCast S6400000 (extractStridedSlice S1x6400000 ![1, 0] edges slices_S2x6400000_S1x6400000_1_0) shapeCasts_S1x6400000_S6400000

/-- An index below zero counts from the end of an axis of extent `n`. -/
def fromEnd (n : BitVec 32) (v : IVec S6400000 32) : IVec S6400000 32 :=
  select (cmpi .slt v (broadcastInDim S6400000 ![] bcast_S_S6400000 (constantI S_ 32 0#32)))
    (addi v (broadcastInDim S6400000 ![] bcast_S_S6400000 (constantI S_ 32 n))) v

/-- A per-edge vector as a column. -/
def asColumn {α : Type} (v : S6400000.Idx → α) : S6400000x1.Idx → α :=
  broadcastInDim S6400000x1 ![0] bcast_S6400000_S6400000x1_0 v

/-- The type label of the atom each edge names. -/
def labelOf (labels : IVec S100000 32) (atoms : IVec S6400000 32) : IVec S6400000 32 :=
  Host.gather gather_S100000_S6400000x1_S6400000_n_0_n_n_0_1_1 labels (asColumn (fromEnd 100000#32 atoms))

/-- The scale of each edge: the scale table at (its centre's label, its neighbour's label). -/
def scaleOf (labels : IVec S100000 32) (edges : IVec S2x6400000 32) (table : FVec F S4x4 .f32) : FVec F S6400000 .f32 :=
  Host.gather gather_S4x4_S6400000x2_S6400000_n_01_n_n_01_1_11 table
    (concatenate S6400000x2 1
      [⟨S6400000x1, asColumn (fromEnd 4#32 (labelOf labels (centres edges)))⟩,
       ⟨S6400000x1, asColumn (fromEnd 4#32 (labelOf labels (neighbours edges)))⟩]
      concatenates_S6400000x1_S6400000x1_S6400000x2_d1)

/-- Labels clamped into [0, 3]. -/
def clampLabels (labels : IVec S100000 32) : IVec S100000 32 :=
  minsi (broadcastInDim S100000 ![] bcast_S_S100000 (constantI S_ 32 3#32))
    (maxsi (broadcastInDim S100000 ![] bcast_S_S100000 (constantI S_ 32 0#32)) labels)

/-- Each atom's energy: the weighted edge energies summed over the edges centred on it, times 1/8. -/
def atomEnergy (centreAtoms : IVec S6400000 32) (weighted : FVec F S6400000x1 .f32) : FVec F S100000x1 .f32 :=
  mulf
    (Host.scatterAdd scatter_S100000x1_S6400000x1_S6400000x1_1_0_0_1
      (broadcastInDim S100000x1 ![] bcast_S_S100000x1 (constant S_ .f32 0x00000000#32))
      (asColumn centreAtoms) weighted)
    (broadcastInDim S100000x1 ![] bcast_S_S100000x1 (constant S_ .f32 0x3E000000#32))

/-- THE RESULT both programs compute: every edge's energy times its scale, summed per centre atom, times 1/8. -/
def result (energy : FVec F S6400000x1 .f32) (edges : IVec S2x6400000 32) (labels : IVec S100000x1 32) (table : FVec F S4x4 .f32) :
    FVec F S100000x1 .f32 :=
  atomEnergy (centres edges)
    (mulf energy (asColumn (scaleOf (shapeCast S100000 labels shapeCasts_S100000x1_S100000) edges table)))

end Cert.KernelIdeal.Terms

end
-- ==== Proof.KernelHost.lean ====
/-
  The kernel's host program around its region, read as values.

  Before the region, three stretches: the labels are flattened; they are CLAMPED into [0, 3]; then the centre and
  neighbour rows are cut from the edge list, the per-edge scales are looked up from the clamped labels, and both the
  edge energies (flattened) and the scales are laid out as 50000 rows of 128 lanes — the region's two inputs.
  After the region: its output is laid out as a column [E, 1] again, summed per centre atom and multiplied by 1/8.
  A stretch of host lines run from a valuation is the next stretch run from what the first left.
-/
import proofs.«412826_j59777354826469_3_alg».proof.Proof.Gen.KernelIdeal.Frame
import proofs.«412826_j59777354826469_3_alg».proof.Proof.EdgeTerms
import Idealize.ShloMosaic.Lib.StableHlo.Run

set_option maxRecDepth 16384

noncomputable section

namespace Cert.KernelIdeal.HostValues

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]

/-- Two stretches of host lines, one after the other. -/
theorem after_stretches (l₁ l₂ : List (HloOp τ sig (Elt F))) (W : Valuation τ sig (Elt F)) :
    after (l₁ ++ l₂) W = after l₂ (after l₁ W) := by
  induction l₁ generalizing W with
  | nil => rfl
  | cons op ops ih => exact ih _

/-! ## The three stretches before the region, each from any valuation -/

/-- First and second stretch: the labels flattened, then clamped into [0, 3]. -/
theorem clamped_stage (W : Valuation τ sig (Elt F)) :
    (after hostOps0_1 (after hostOps0 W) (Proc.devRef .tc main_v1) : S100000.Idx → BitVec 32)
      = clampLabels (shapeCast S100000 (W (Proc.devRef .tc main_arg2)) shapeCasts_S100000x1_S100000) := by
  unfold clampLabels
  after_results_simp
  rfl

theorem energy_kept_stage (W : Valuation τ sig (Elt F)) :
    after hostOps0_1 (after hostOps0 W) (Proc.devRef .tc main_arg0) = W (Proc.devRef .tc main_arg0) := by
  after_results_simp

theorem edges_kept_stage (W : Valuation τ sig (Elt F)) :
    after hostOps0_1 (after hostOps0 W) (Proc.devRef .tc main_arg1) = W (Proc.devRef .tc main_arg1) := by
  after_results_simp

theorem table_kept_stage (W : Valuation τ sig (Elt F)) :
    after hostOps0_1 (after hostOps0 W) (Proc.devRef .tc main_arg3) = W (Proc.devRef .tc main_arg3) := by
  after_results_simp

/-- Third stretch: the edge energies, flattened, as rows of 128 lanes. -/
theorem energy_stage (W : Valuation τ sig (Elt F)) :
    (after hostOps0_2 W (Proc.devRef .tc main_v35) : S50000x128.Idx → Elt F .f32)
      = shapeCast S50000x128 (shapeCast S6400000 (W (Proc.devRef .tc main_arg0)) shapeCasts_S6400000x1_S6400000) shapeCasts_S6400000_S50000x128 := by
  after_results_simp
  rfl

/-- Third stretch: the centre atoms. -/
theorem centres_stage (W : Valuation τ sig (Elt F)) :
    (after hostOps0_2 W (Proc.devRef .tc main_v3) : S6400000.Idx → BitVec 32) = centres (W (Proc.devRef .tc main_arg1)) := by
  unfold centres
  after_results_simp
  rfl

set_option maxHeartbeats 2000000 in
/-- Third stretch: the per-edge scales from the labels the second stretch left, as rows of 128 lanes. -/
theorem scale_stage (W : Valuation τ sig (Elt F)) :
    (after hostOps0_2 W (Proc.devRef .tc main_v36) : S50000x128.Idx → Elt F .f32)
      = shapeCast S50000x128
          (scaleOf (W (Proc.devRef .tc main_v1)) (W (Proc.devRef .tc main_arg1)) (W (Proc.devRef .tc main_arg3)))
          shapeCasts_S6400000_S50000x128 := by
  unfold scaleOf labelOf fromEnd asColumn centres neighbours
  after_results_simp
  rfl

/-! ## The lines after the region, from any valuation -/

/-- The region's output as a column, summed per centre atom, times 1/8. -/
theorem tail_stage (W : Valuation τ sig (Elt F)) :
    (after hostOps1 W (Proc.devRef .tc main_v43) : S100000x1.Idx → Elt F .f32)
      = atomEnergy (W (Proc.devRef .tc main_v3))
          (shapeCast S6400000x1 (W (Proc.devRef .tc main_v37)) shapeCasts_S50000x128_S6400000x1) := by
  unfold atomEnergy asColumn
  after_results_simp
  rfl

end Cert.KernelIdeal.HostValues

end
-- ==== Proof.KernelTiles.lean ====
/-
  The array the kernel region leaves behind.  The region walks five grid points; at point t it reads rows
  10000·t … 10000·t + 9999 (all 128 lanes) of its two input arrays, multiplies them entry by entry and writes the
  product back to the same rows of the output array.  All three windows move together (block index (t, 0)), the five
  blocks tile the 50000 rows, so after the region the output array is the entry-by-entry product of the two inputs.
-/
import proofs.«412826_j59777354826469_3_alg».proof.Proof.Gen.KernelIdeal.Frame
import Idealize.ShloMosaic.Lib.Pipeline.Value

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

theorem origin : (![0, 0] : Fin 2 → Nat) = fun _ => 0 := funext fun a => by fin_cases a <;> rfl

/-- The entry-by-entry product of two arrays of 50000 × 128 entries. -/
abbrev product (x y : S50000x128.Idx → Elt F .f32) : S50000x128.Idx → Elt F .f32 := fun i => FloatOps.mulf (x i) (y i)

/-- The body's value: the product of the two loaded blocks (the two re-layouts in it keep the shape). -/
theorem body_value (x0 x1 : Vec F S10000x128 .f32) : k0_pay1 x0 x1 = mulf x0 x1 := by
  show mulf (shapeCast S10000x128 x0 _) (shapeCast S10000x128 x1 _) = _
  rw [shapeCast_self, shapeCast_self]

/-- The three windows sit on the same block at every point, and that block is one of the five row blocks. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 4 ∧ win0_2.index t (1 : Fin 2) = 0 :=
  (by decide +kernel : ∀ t : Fin grid0.N, _)

/-- Every row block is some point's. -/
theorem block_reached : ∀ q : Fin 5, ∃ t : Fin cfg0.N, win0_2.index t = ![q.val, 0] :=
  (by decide +kernel : ∀ q : Fin 5, ∃ t : Fin grid0.N, win0_2.index t = ![q.val, 0])

/-- What point `t` writes back is block `t` of the product of the two input arrays as the region finds them. -/
theorem written_block (c : Dev nD) (t : Fin cfg0.N) :
    (dats m 0 c).flushed 2 t = ((cfg0.win 2).blk t).view.read (Elt F) (product (V m c main_v35) (V m c main_v36)) := by
  show (cfg0.win 2).cut (grid0.coords t) ((dats m 0 c).after 2 t) = _
  rw [after0_2]
  unfold out0_2
  rw [View.canon_unit_zero origin]
  simp only [View.ld_unit_zero (S := S10000x128) origin]
  rw [body_value]
  obtain ⟨e0, e1, e2, e3, _, _⟩ := same_block t
  funext j
  show FloatOps.mulf (V m c main_v35 (((cfg0.win 0).blk t).view.emb j)) (V m c main_v36 (((cfg0.win 1).blk t).view.emb j))
    = FloatOps.mulf (V m c main_v35 (((cfg0.win 2).blk t).view.emb j)) (V m c main_v36 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem in_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v37).slice (win0_2.rect t)).set ↔ _
  rw [View.set_slice_whole, Rect.mem_set_unit]
  exact Iff.rfl

/-- The five blocks cover the output array: row r lies in block r / 10000. -/
theorem blocks_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_reached ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY AFTER THE REGION is the product of the two input arrays. -/
theorem region_result (c : Dev nD) : (dats m 0 c).arrAt 2 cfg0.N = product (V m c main_v35) (V m c main_v36) :=
  (dats m 0 c).arrAt_eq_of_cover 2 (product (V m c main_v35) (V m c main_v36)) (fun t _ => written_block m c t) blocks_cover

end Cert.KernelIdeal.Tiles

end
-- ==== Proof.Relayout.lean ====
/-
  Two facts about arrays over the 6 400 000 edges that mention no program.

  * The edge energies form a column [E, 1]; the per-edge scales form a vector [E].  Laying both out as
    50 000 rows of 128 lanes, multiplying lane by lane, and laying the product out as a column again is the
    same as multiplying the column, entry by entry, by the scales placed along it: every re-layout keeps an
    entry's row-major position, and the row-major position of entry (e, 0) of the column is e.

  * Clamping an atom-type label into [0, 3] (first from below by 0, then from above by 3) returns the label
    when it already lies in 0 ≤ label < 4.
-/
import Idealize.ShloMosaic.Lib.Pipeline.Value
import Idealize.ShloMosaic.Lib.ValueIdx
import Idealize.ShloMosaic.Lib.Affine
import Idealize.ShloMosaic.PureOps.Ideal

noncomputable section

namespace Cert.EdgeEnergy

open Idealize.ShloMosaic Idealize.ShloMosaic.ValueIdx

/-- One entry per edge. -/
abbrev Edges : Shape := ⟨1, ![6400000]⟩
/-- One entry per edge, as a column. -/
abbrev EdgeCol : Shape := ⟨2, ![6400000, 1]⟩
/-- The edges as 50 000 rows of 128 lanes. -/
abbrev EdgeTiles : Shape := ⟨2, ![50000, 128]⟩

variable {F : FTy → Type} [FloatOps F]

/-- A vector placed along a column reads, at any entry of the column, the vector at the entry with the same
    row-major position. -/
theorem along_column_eq (s : Edges.Idx → F .f32) (hb : Edges.BroadcastsInDim EdgeCol ![0]) (h : Edges.ShapeCasts EdgeCol)
    (j : EdgeCol.Idx) : broadcastInDim EdgeCol ![0] hb s j = s (Shape.reshapeEquiv h j) := by
  refine broadcastInDim_apply ![0] hb s j _ ?_
  intro a
  have ha : a = 0 := Subsingleton.elim _ _
  subst ha
  have hpos := Shape.rowMajor_reshapeEquiv (s := Edges) (s' := EdgeCol) h j
  rw [Shape.rowMajor_val_one, Shape.rowMajor_val_two] at hpos
  have h1 : (j 1).val < 1 := (j 1).isLt
  have hne : ¬ Edges.size 0 = 1 := by decide
  rw [if_neg hne]
  show ((Shape.reshapeEquiv h j) 0).val = (j 0).val
  have hd : (![6400000, 1] : Fin 2 → Nat) 1 = 1 := rfl
  rw [hd] at hpos
  omega

/-- THE PRODUCT TAKEN ROW BY ROW OF 128 LANES IS THE PRODUCT TAKEN EDGE BY EDGE. -/
theorem tiled_product_eq (a : FVec F EdgeCol .f32) (s : FVec F Edges .f32)
    (h1 : EdgeCol.ShapeCasts Edges) (h2 : Edges.ShapeCasts EdgeTiles) (h3 : EdgeTiles.ShapeCasts EdgeCol)
    (hb : Edges.BroadcastsInDim EdgeCol ![0]) :
    shapeCast EdgeCol (mulf (shapeCast EdgeTiles (shapeCast Edges a h1) h2) (shapeCast EdgeTiles s h2)) h3
      = mulf a (broadcastInDim EdgeCol ![0] hb s) := by
  funext j
  show FloatOps.mulf (a (Shape.reshapeEquiv h1 (Shape.reshapeEquiv h2 (Shape.reshapeEquiv h3 j))))
      (s (Shape.reshapeEquiv h2 (Shape.reshapeEquiv h3 j)))
    = FloatOps.mulf (a j) (broadcastInDim EdgeCol ![0] hb s j)
  rw [Shape.reshapeEquiv_reshapeEquiv, Shape.reshapeEquiv_reshapeEquiv, Shape.reshapeEquiv_reshapeEquiv,
    Shape.reshapeEquiv_self, along_column_eq s hb (h3.trans h2) j]

/-- A label in 0 ≤ label < 4 is its own clamp into [0, 3]. -/
theorem clamp_label (w : BitVec 32) (h0 : (0#32 : BitVec 32).toInt ≤ w.toInt) (h4 : w.toInt < (4#32 : BitVec 32).toInt) :
    IntOp.minsi 3#32 (IntOp.maxsi 0#32 w) = w := by
  have e0 : (0#32 : BitVec 32).toInt = 0 := by decide
  have e3 : (3#32 : BitVec 32).toInt = 3 := by decide
  have e4 : (4#32 : BitVec 32).toInt = 4 := by decide
  rw [e0] at h0; rw [e4] at h4
  have hmax : IntOp.maxsi 0#32 w = w := by
    unfold IntOp.maxsi
    split
    · rename_i hc
      rw [BitVec.slt_iff_toInt_lt, e0] at hc
      have : w.toInt = (0#32 : BitVec 32).toInt := by rw [e0]; omega
      exact (BitVec.eq_of_toInt_eq this).symm
    · rfl
  rw [hmax]
  unfold IntOp.minsi
  split
  · rename_i hc
    rw [BitVec.slt_iff_toInt_lt, e3] at hc
    omega
  · rfl

end Cert.EdgeEnergy

end
-- ==== Proof.LabelRange.lean ====
/-
  What the precondition says about the atom-type labels.  The precondition is a conjunction of four "all entries
  satisfy …" tests; its last two say that every label is ≥ 0 and < 4, as signed 32-bit integers.  A conjunction of
  bits is one exactly when each is, and an "all" that is one had a one at every entry.
-/
import proofs.«412826_j59777354826469_3_alg».proof.Pre_finite_inputs
import Idealize.ShloMosaic.Lib.ReduceAll
import Idealize.ShloMosaic.Lib.Affine
import Idealize.ShloMosaic.Lib.ValueIdx

noncomputable section

namespace Cert.EdgeEnergy

open Idealize.ShloMosaic

variable {F : FTy → Type} [FloatOps F] [Cert.Pre_finite_inputs.Facts]

/-- The scalar shape has one index. -/
instance scalarIdx_subsingleton : Subsingleton Cert.Pre_finite_inputs.S_.Idx := ⟨fun a b => funext fun d => d.elim0⟩

/-- Under the precondition every atom-type label lies in 0 ≤ label < 4. -/
theorem labels_in_range (energy : FVec F Cert.Pre_finite_inputs.S6400000x1 .f32) (edges : IVec Cert.Pre_finite_inputs.S2x6400000 32)
    (labels : IVec Cert.Pre_finite_inputs.S100000x1 32) (table : FVec F Cert.Pre_finite_inputs.S4x4 .f32)
    (h : Cert.Pre_finite_inputs.fn (F := F) energy edges labels table = fun _ => 1#1) (i : Cert.Pre_finite_inputs.S100000x1.Idx) :
    (0#32 : BitVec 32).toInt ≤ (labels i).toInt ∧ (labels i).toInt < (4#32 : BitVec 32).toInt := by
  have e := congrFun h ValueIdx.ix0
  dsimp only [Cert.Pre_finite_inputs.fn, Cert.Pre_finite_inputs.fn_part1] at e
  obtain ⟨e123, eLt⟩ := IntOp.andi_eq_one.mp e
  obtain ⟨_, eGe⟩ := IntOp.andi_eq_one.mp e123
  have hGe := Host.reduce_andi_all _ _ _ _ _ eGe i
  have hLt := Host.reduce_andi_all _ _ _ _ _ eLt i
  exact ⟨IntOp.cmpi_sge.mp hGe, IntOp.cmpi_slt.mp hLt⟩

end Cert.EdgeEnergy

end
-- ==== Proof.Bridge.lean ====
/-
  The kernel's result as one function of its four argument arrays.

  The region's output is the product of its two inputs; its inputs are the flattened edge energies and the per-edge
  scales, both as rows of 128 lanes; the product taken that way and laid out as a column is the edge energies times
  the scales placed along the column.  The scales were looked up from CLAMPED labels — and a label in 0 ≤ label < 4
  is its own clamp, so under the precondition they are the scales looked up from the labels themselves.  What is
  left is the sum per centre atom times 1/8.
-/
import proofs.«412826_j59777354826469_3_alg».proof.Proof.KernelHost
import proofs.«412826_j59777354826469_3_alg».proof.Proof.KernelTiles
import proofs.«412826_j59777354826469_3_alg».proof.Proof.Relayout
import proofs.«412826_j59777354826469_3_alg».proof.Proof.LabelRange

set_option maxRecDepth 16384

noncomputable section

namespace Cert.KernelIdeal.Bridge

open Cert.KernelIdeal Cert.KernelIdeal.Gen Cert.KernelIdeal.Terms Cert.KernelIdeal.HostValues
open Idealize.ShloMosaic Idealize.ShloMosaic.TcCoe Idealize.SL.Sem Idealize.ShloMosaic.StableHlo

variable {F : FTy → Type} [FloatOps F]
variable (m : (ℓ : Loc nD τ sig) → Buf (Elt F) ℓ)

/-- Every label of an array lies in 0 ≤ label < 4. -/
def LabelsInRange (labels : IVec S100000x1 32) : Prop :=
  ∀ i : S100000x1.Idx, (0#32 : BitVec 32).toInt ≤ (labels i).toInt ∧ (labels i).toInt < (4#32 : BitVec 32).toInt

/-- Labels in range are their own clamp (flattening moves entries, it does not change them). -/
theorem clamp_removed (labels : IVec S100000x1 32) (h : LabelsInRange labels) :
    clampLabels (shapeCast S100000 labels shapeCasts_S100000x1_S100000) = shapeCast S100000 labels shapeCasts_S100000x1_S100000 := by
  funext i
  show IntOp.minsi 3#32 (IntOp.maxsi 0#32 (labels (Shape.reshapeEquiv shapeCasts_S100000x1_S100000 i)))
    = labels (Shape.reshapeEquiv shapeCasts_S100000x1_S100000 i)
  exact Cert.EdgeEnergy.clamp_label _ (h _).1 (h _).2

/-- The host lines before the region are its three stretches in turn. -/
theorem prefix_stretches (c : Dev nD) :
    V0 m c = after hostOps0_2 (after hostOps0_1 (after hostOps0 (fun b => m (c, b)))) := by
  dsimp only [Gen.V0]
  simp only [List.flatten_cons, List.flatten_nil, List.append_nil]
  rw [after_stretches, after_stretches]

/-- The region's first input. -/
theorem energy_tiled (c : Dev nD) :
    (V m c main_v35 : S50000x128.Idx → Elt F .f32)
      = shapeCast S50000x128 (shapeCast S6400000 (m ((c : Thread nD τ).loc main_arg0)) shapeCasts_S6400000x1_S6400000) shapeCasts_S6400000_S50000x128 := by
  show V0 m c (Proc.devRef .tc main_v35) = _
  rw [prefix_stretches, energy_stage, energy_kept_stage]

/-- The region's second input, under the precondition: the scales of the labels themselves. -/
theorem scale_tiled (c : Dev nD) (h : LabelsInRange (m ((c : Thread nD τ).loc main_arg2))) :
    (V m c main_v36 : S50000x128.Idx → Elt F .f32)
      = shapeCast S50000x128
          (scaleOf (shapeCast S100000 (m ((c : Thread nD τ).loc main_arg2)) shapeCasts_S100000x1_S100000)
            (m ((c : Thread nD τ).loc main_arg1)) (m ((c : Thread nD τ).loc main_arg3)))
          shapeCasts_S6400000_S50000x128 := by
  show V0 m c (Proc.devRef .tc main_v36) = _
  rw [prefix_stretches, scale_stage, clamped_stage, edges_kept_stage, table_kept_stage]
  show shapeCast S50000x128 (scaleOf (clampLabels (shapeCast S100000 (m ((c : Thread nD τ).loc main_arg2)) shapeCasts_S100000x1_S100000))
      (m ((c : Thread nD τ).loc main_arg1)) (m ((c : Thread nD τ).loc main_arg3))) shapeCasts_S6400000_S50000x128 = _
  rw [clamp_removed _ h]

/-- The centre atoms, as the lines after the region find them. -/
theorem centres_kept (c : Dev nD) :
    (V0 m c (Proc.devRef .tc main_v3) : S6400000.Idx → BitVec 32) = centres (m ((c : Thread nD τ).loc main_arg1)) := by
  rw [prefix_stretches, centres_stage, edges_kept_stage]

/-- The region's output as a column: every edge's energy times its scale. -/
theorem weighted_column (c : Dev nD) (h : LabelsInRange (m ((c : Thread nD τ).loc main_arg2))) :
    shapeCast S6400000x1 ((dats m 0 c).arrAt 2 cfg0.N) shapeCasts_S50000x128_S6400000x1
      = mulf (m ((c : Thread nD τ).loc main_arg0))
          (asColumn (scaleOf (shapeCast S100000 (m ((c : Thread nD τ).loc main_arg2)) shapeCasts_S100000x1_S100000)
            (m ((c : Thread nD τ).loc main_arg1)) (m ((c : Thread nD τ).loc main_arg3)))) := by
  rw [Tiles.region_result, energy_tiled, scale_tiled m c h]
  exact Cert.EdgeEnergy.tiled_product_eq _ _ _ _ _ _

/-- THE KERNEL'S RESULT, as the lines after the region leave it. -/
theorem kernel_value (c : Dev nD) (h : LabelsInRange (m ((c : Thread nD τ).loc main_arg2))) :
    (Pipeline.afterTail₀ cfgs (dats m) 0 (V0 m) [hostOps1] c main_v43 : S100000x1.Idx → Elt F .f32)
      = result (m ((c : Thread nD τ).loc main_arg0)) (m ((c : Thread nD τ).loc main_arg1))
          (m ((c : Thread nD τ).loc main_arg2)) (m ((c : Thread nD τ).loc main_arg3)) := by
  unfold Pipeline.afterTail₀
  show after hostOps1 _ (Proc.devRef .tc main_v43) = _
  refine (tail_stage _).trans ?_
  unfold result
  have h3 := (Pipeline.withArrays_of_ne spec0 c (V0 m c) (fun w => (dats m 0 c).arrAt w cfg0.N) main_v3 (by decide)).trans (centres_kept m c)
  have h37 := Pipeline.withArrays_arr spec0 launch0.win.arr_inj c (V0 m c) (fun w => (dats m 0 c).arrAt w cfg0.N) 2
  exact congrArg₂ atomEnergy h3
    ((congrArg (fun x => shapeCast S6400000x1 x shapeCasts_S50000x128_S6400000x1) h37).trans (weighted_column m c h))

/-- THE KERNEL'S RUN: it terminates with the result array at `result` of the arguments, the arguments unchanged. -/
theorem kernel_run (ρ : Dev nD → PrngReg) (h : ∀ c : Dev nD, LabelsInRange (m ((c : Thread nD τ).loc main_arg2))) :
    θ_run defs (onTc (τ := τ) (main (F := F))) ⟨m, fun _ => 0, ρ⟩ (fun r => ∀ c : Dev nD,
      r.2.mem ((c.tc : Thread nD τ).loc main_v43)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c =>
      ⟨((hr c).2 main_v43 (Pipeline.mem_restRefs_of main_v43 (by decide) (by decide))).trans (kernel_value m c (h c)),
       ((hr c).2 main_arg0 (Pipeline.mem_restRefs_of main_arg0 (by decide) (by decide))).trans (W_main_arg0 m (dats m) c),
       ((hr c).2 main_arg1 (Pipeline.mem_restRefs_of main_arg1 (by decide) (by decide))).trans (W_main_arg1 m (dats m) c),
       ((hr c).2 main_arg2 (Pipeline.mem_restRefs_of main_arg2 (by decide) (by decide))).trans (W_main_arg2 m (dats m) c),
       ((hr c).2 main_arg3 (Pipeline.mem_restRefs_of main_arg3 (by decide) (by decide))).trans (W_main_arg3 m (dats m) c)⟩)
    (run_main m ρ)

end Cert.KernelIdeal.Bridge

end
-- ==== Proof.Reference.lean ====
/-
  The reference computes the same function.  Its host program cuts the centre and neighbour rows from the edge list,
  looks the labels up (unclamped), looks the scales up, multiplies the edge-energy column by the scales placed along
  it, sums per centre atom and multiplies by 1/8: line for line the function `result`.
-/
import proofs.«412826_j59777354826469_3_alg».proof.Proof.Gen.ReferenceIdeal.Run
import proofs.«412826_j59777354826469_3_alg».proof.Proof.Gen.KernelIdeal
import proofs.«412826_j59777354826469_3_alg».proof.Proof.EdgeTerms

set_option maxRecDepth 16384

noncomputable section

namespace Cert.ReferenceIdeal.RefValue

open Idealize.ShloMosaic Idealize.ShloMosaic.TcCoe Idealize.SL.Sem
open Cert.KernelIdeal.Terms

variable {F : FTy → Type} [FloatOps F]

set_option maxHeartbeats 2000000 in
/-- The reference's result term is `result` of its four argument arrays. -/
theorem reference_value (m' : (ℓ : Loc Cert.ReferenceIdeal.nD Cert.ReferenceIdeal.τ Cert.ReferenceIdeal.sig) → Buf (Elt F) ℓ)
    (c : Dev Cert.ReferenceIdeal.nD) :
    Cert.ReferenceIdeal.Value.res_main_v39 m' c
      = result (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) := by
  unfold Cert.ReferenceIdeal.Value.res_main_v39 result atomEnergy scaleOf labelOf fromEnd asColumn centres neighbours
  rfl

end Cert.ReferenceIdeal.RefValue

end
-- ==== Proof.lean ====
/-
  Per-atom energies from per-edge energies: every edge's energy is multiplied by a scale looked up in a 4 × 4 table at
  (type label of its centre atom, type label of its neighbour atom); the products are summed over the edges centred on
  each atom, and the sums are multiplied by 1/8.

  The kernel does the lookups and the sum on the host and the multiplication in one region over the 6 400 000 edges
  laid out as 50 000 rows of 128 lanes, five row blocks of 10 000; the reference multiplies the column of edge
  energies directly.  Re-laying an array keeps every entry at its row-major position, so the two products agree entry
  by entry; nothing is reassociated and no law of the extended reals is used, so the finiteness of the inputs is never
  opened.  The one real difference is that the kernel CLAMPS the labels into [0, 3] before the lookups and the
  reference does not: a label in 0 ≤ label < 4 (the precondition's last two conjuncts) is its own clamp.

  Both programs therefore end with `Terms.result` of the four arguments (Proof/Bridge.lean for the kernel,
  Proof/Reference.lean for the reference).  The kernel's two frames are the generated ones, the reference's frame is
  its run with the result dropped, and the idealization rewrote nothing, so `preserves` is `True`.
-/
import proofs.«412826_j59777354826469_3_alg».proof.Defs
import proofs.«412826_j59777354826469_3_alg».proof.Proof.Gen.Kernel
import proofs.«412826_j59777354826469_3_alg».proof.Proof.Gen.Kernel.Skeleton
import proofs.«412826_j59777354826469_3_alg».proof.Proof.Gen.Kernel.Launch
import proofs.«412826_j59777354826469_3_alg».proof.Proof.Gen.Kernel.Points
import proofs.«412826_j59777354826469_3_alg».proof.Proof.Gen.Kernel.Frame
import proofs.«412826_j59777354826469_3_alg».proof.Proof.Gen.KernelIdeal
import proofs.«412826_j59777354826469_3_alg».proof.Proof.Gen.KernelIdeal.Skeleton
import proofs.«412826_j59777354826469_3_alg».proof.Proof.Gen.KernelIdeal.Launch
import proofs.«412826_j59777354826469_3_alg».proof.Proof.Gen.KernelIdeal.Points
import proofs.«412826_j59777354826469_3_alg».proof.Proof.Gen.KernelIdeal.Frame
import proofs.«412826_j59777354826469_3_alg».proof.Proof.Gen.ReferenceIdeal
import proofs.«412826_j59777354826469_3_alg».proof.Proof.Gen.Pre_finite_inputs
import proofs.«412826_j59777354826469_3_alg».proof.Proof.Gen.ReferenceIdeal.Run
import proofs.«412826_j59777354826469_3_alg».proof.Proof.Bridge
import proofs.«412826_j59777354826469_3_alg».proof.Proof.Reference
import proofs.«412826_j59777354826469_3_alg».proof.Proof.LabelRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the per-atom energies `result` of the
    arguments: the kernel because under the precondition its clamp of the labels does nothing, the reference line
    for line. -/
theorem algebraic : Cert.algebraic_KernelIdeal_ReferenceIdeal := by
  intro m ρ m' ρ' hpre hagree
  refine ⟨_, Cert.KernelIdeal.Bridge.kernel_run (F := Ideal) m ρ
    (fun c i => Cert.EdgeEnergy.labels_in_range _ _ _ _ (hpre c) i), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.reference_value, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
